-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x2048 : Shape := ⟨3, ![4, 2048, 2048]⟩
abbrev S4x2048x16 : Shape := ⟨3, ![4, 2048, 16]⟩
abbrev S12x64 : Shape := ⟨2, ![12, 64]⟩
abbrev S_ : Shape := ⟨0, ![]⟩

class Facts : Prop where
  bcast_S_S4x2048x16 : S_.BroadcastsInDim S4x2048x16 (![] : Fin 0 → Fin S4x2048x16.rank)
  reducesTo_S4x2048x16_S_d0_1_2 : S4x2048x16.ReducesTo [0, 1, 2] S_
  h_S_ : 0 < S_.numel
  bcast_S_S12x64 : S_.BroadcastsInDim S12x64 (![] : Fin 0 → Fin S12x64.rank)
  reducesTo_S12x64_S_d0_1 : S12x64.ReducesTo [0, 1] S_
  bcast_S_S4x2048x2048 : S_.BroadcastsInDim S4x2048x2048 (![] : Fin 0 → Fin S4x2048x2048.rank)
  reducesTo_S4x2048x2048_S_d0_1_2 : S4x2048x2048.ReducesTo [0, 1, 2] S_

variable [Facts]

def fn {F : FTy → Type} [FloatOps F] (main_arg0 : IVec S4x2048x2048 32) (main_arg1 : FVec F S4x2048x16 .f32) (main_arg2 : FVec F S12x64 .f32) : IVec S_ 1 :=
  let main_v0 : FVec F S4x2048x16 .f32 := Host.absf main_arg1
  let main_cst : FVec F S_ .f32 := constant S_ .f32 0x7F800000#32
  let main_v1 : FVec F S4x2048x16 .f32 := broadcastInDim S4x2048x16 ![] bcast_S_S4x2048x16 main_cst
  let main_v2 : IVec S4x2048x16 1 := cmpf .olt main_v0 main_v1
  let main_c : IVec S_ 1 := constantI S_ 1 1#1
  let main_v3 : IVec S_ 1 := (fun x v => Host.reduce IntOp.andi x v reducesTo_S4x2048x16_S_d0_1_2 h_S_) main_v2 main_c
  let main_v4 : FVec F S12x64 .f32 := Host.absf main_arg2
  let main_cst_0 : FVec F S_ .f32 := constant S_ .f32 0x7F800000#32
  let main_v5 : FVec F S12x64 .f32 := broadcastInDim S12x64 ![] bcast_S_S12x64 main_cst_0
  let main_v6 : IVec S12x64 1 := cmpf .olt main_v4 main_v5
  let main_c_1 : IVec S_ 1 := constantI S_ 1 1#1
  let main_v7 : IVec S_ 1 := (fun x v => Host.reduce IntOp.andi x v reducesTo_S12x64_S_d0_1 h_S_) main_v6 main_c_1
  let main_v8 : IVec S_ 1 := andi main_v3 main_v7
  let main_c_2 : IVec S_ 32 := constantI S_ 32 0#32
  let main_v9 : IVec S4x2048x2048 32 := broadcastInDim S4x2048x2048 ![] bcast_S_S4x2048x2048 main_c_2
  let main_v10 : IVec S4x2048x2048 1 := cmpi .sge main_arg0 main_v9
  let main_c_3 : IVec S_ 32 := constantI S_ 32 64#32
  let main_v11 : IVec S4x2048x2048 32 := broadcastInDim S4x2048x2048 ![] bcast_S_S4x2048x2048 main_c_3
  let main_v12 : IVec S4x2048x2048 1 := cmpi .slt main_arg0 main_v11
  let main_v13 : IVec S4x2048x2048 1 := andi main_v10 main_v12
  let main_c_4 : IVec S_ 1 := constantI S_ 1 1#1
  let main_v14 : IVec S_ 1 := (fun x v => Host.reduce IntOp.andi x v reducesTo_S4x2048x2048_S_d0_1_2 h_S_) main_v13 main_c_4
  let main_v15 : IVec S_ 1 := andi main_v8 main_v14
  main_v15
-- ==== Kernel.lean ====
abbrev S4x2048x2048 : Shape := ⟨3, ![4, 2048, 2048]⟩
abbrev S4x2048x16 : Shape := ⟨3, ![4, 2048, 16]⟩
abbrev S12x64 : Shape := ⟨2, ![12, 64]⟩
abbrev S_ : Shape := ⟨0, ![]⟩
abbrev S1x16777216 : Shape := ⟨2, ![1, 16777216]⟩
abbrev S12x16777216 : Shape := ⟨2, ![12, 16777216]⟩
abbrev S1x32768 : Shape := ⟨2, ![1, 32768]⟩
abbrev S12x32768 : Shape := ⟨2, ![12, 32768]⟩
abbrev S64x32768 : Shape := ⟨2, ![64, 32768]⟩
abbrev S16777216x12 : Shape := ⟨2, ![16777216, 12]⟩
abbrev S4x2048x2048x12 : Shape := ⟨4, ![4, 2048, 2048, 12]⟩

abbrev nBuf : Space → Nat
  | .hbm => 15
  | .vmem => 5
  | .smem => 0
  | _ => 0

abbrev bufTy : (tb : Table) → Fin (tcTables nBuf tb) → BufTy
  | .hbm, ⟨0, _⟩ => ⟨S4x2048x2048, .i32⟩
  | .hbm, ⟨1, _⟩ => ⟨S4x2048x16, .f32⟩
  | .hbm, ⟨2, _⟩ => ⟨S12x64, .f32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S4x2048x2048, .i32⟩
  | .hbm, ⟨7, _⟩ => ⟨S4x2048x2048, .i32⟩
  | .hbm, ⟨8, _⟩ => ⟨S_, .i32⟩
  | .hbm, ⟨9, _⟩ => ⟨S4x2048x2048, .i32⟩
  | .hbm, ⟨10, _⟩ => ⟨S4x2048x2048, .i32⟩
  | .hbm, ⟨11, _⟩ => ⟨S1x16777216, .i32⟩
  | .hbm, ⟨12, _⟩ => ⟨S12x16777216, .f32⟩
  | .hbm, ⟨13, _⟩ => ⟨S16777216x12, .f32⟩
  | .hbm, ⟨14, _⟩ => ⟨S4x2048x2048x12, .f32⟩
  | .local _ .vmem, ⟨0, _⟩ => ⟨S1x32768, .i32⟩
  | .local _ .vmem, ⟨1, _⟩ => ⟨S1x32768, .i32⟩
  | .local _ .vmem, ⟨2, _⟩ => ⟨S12x64, .f32⟩
  | .local _ .vmem, ⟨3, _⟩ => ⟨S12x32768, .f32⟩
  | .local _ .vmem, ⟨4, _⟩ => ⟨S12x32768, .f32⟩
  | _, _ => ⟨S4x2048x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![512], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1x32768 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S12x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S12x32768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S4x2048x2048 : S_.BroadcastsInDim S4x2048x2048 (![] : Fin 0 → Fin S4x2048x2048.rank)
  shapeCasts_S4x2048x2048_S1x16777216 : S4x2048x2048.ShapeCasts S1x16777216
  iota_S64x32768_d0_w32 : S64x32768.Iotas .tc 32 [0]
  inb_S1x32768_S1x32768_0_0 : ∀ a, (![0, 0] : Fin 2 → Nat) a + S1x32768.size a ≤ S1x32768.size a
  h_S1x32768 : 0 < S1x32768.numel
  shapeCasts_S1x32768_S1x32768 : S1x32768.ShapeCasts S1x32768
  broadcasts_S1x32768_S64x32768 : S1x32768.Broadcasts S64x32768
  natLt_1_32 : 1 < 32
  bitsLt_bf16_f32 : FTy.bits .bf16 < FTy.bits .f32
  inb_S12x64_S12x64_0_0 : ∀ a, (![0, 0] : Fin 2 → Nat) a + S12x64.size a ≤ S12x64.size a
  h_S12x64 : 0 < S12x64.numel
  inb_S12x32768_S12x32768_0_0 : ∀ a, (![0, 0] : Fin 2 → Nat) a + S12x32768.size a ≤ S12x32768.size a
  h_S12x32768 : 0 < S12x32768.numel
  transposes_S12x16777216_S16777216x12_1_0 : S12x16777216.Transposes [1, 0] S16777216x12
  shapeCasts_S16777216x12_S4x2048x2048x12 : S16777216x12.ShapeCasts S4x2048x2048x12
  dot_S12x64_S64x32768_S12x32768_1_0_0_1_n_n_wf : DotDims.WF S12x64 S64x32768 S12x32768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32768.size a ≤ S1x16777216.size a
  hwx0_0 : ∀ i : grid0.Coords, EltTy.bits .i32 = 32 ∨ (Rect.block (s := S1x16777216) S1x32768.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S12x64.size a ≤ S12x64.size a
  hwx0_1 : ∀ i : grid0.Coords, EltTy.bits .f32 = 32 ∨ (Rect.block (s := S12x64) S12x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S12x32768.size a ≤ S12x16777216.size a
  hwx0_2 : ∀ i : grid0.Coords, EltTy.bits .f32 = 32 ∨ (Rect.block (s := S12x16777216) S12x32768.size (cc0_transform_2 i) (hinb0_2 i)).WholeWords (EltTy.packing .f32)

variable [Facts₀]

def dot_S12x64_S64x32768_S12x32768_1_0_0_1_n_n : DotDims S12x64 S64x32768 S12x32768 where
  lhsContracting := [1]
  rhsContracting := [0]
  lhsNonContracting := [0]
  rhsNonContracting := [1]
  lhsBatch := []
  rhsBatch := []
  wf := dot_S12x64_S64x32768_S12x32768_1_0_0_1_n_n_wf

abbrev win0_0 : Pipeline.Window sig grid0 :=
  Pipeline.Window.ofSpec (Memref.whole main_v1) S1x32768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S12x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S12x32768.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x2048x2048 : Shape := ⟨3, ![4, 2048, 2048]⟩
abbrev S4x2048x16 : Shape := ⟨3, ![4, 2048, 16]⟩
abbrev S12x64 : Shape := ⟨2, ![12, 64]⟩
abbrev S64x12 : Shape := ⟨2, ![64, 12]⟩
abbrev S_ : Shape := ⟨0, ![]⟩
abbrev S4x2048x2048x1 : Shape := ⟨4, ![4, 2048, 2048, 1]⟩
abbrev S1 : Shape := ⟨1, ![1]⟩
abbrev S1x1x1x1 : Shape := ⟨4, ![1, 1, 1, 1]⟩
abbrev S4x2048x2048x12 : Shape := ⟨4, ![4, 2048, 2048, 12]⟩

abbrev nBuf : Space → Nat
  | .hbm => 27
  | .vmem => 0
  | .smem => 0
  | _ => 0

abbrev bufTy : (tb : Table) → Fin (tcTables nBuf tb) → BufTy
  | .hbm, ⟨0, _⟩ => ⟨S4x2048x2048, .i32⟩
  | .hbm, ⟨1, _⟩ => ⟨S4x2048x16, .f32⟩
  | .hbm, ⟨2, _⟩ => ⟨S12x64, .f32⟩
  | .hbm, ⟨3, _⟩ => ⟨S64x12, .f32⟩
  | .hbm, ⟨4, _⟩ => ⟨S_, .i32⟩
  | .hbm, ⟨5, _⟩ => ⟨S4x2048x2048, .i32⟩
  | .hbm, ⟨6, _⟩ => ⟨S4x2048x2048, .i1⟩
  | .hbm, ⟨7, _⟩ => ⟨S_, .i32⟩
  | .hbm, ⟨8, _⟩ => ⟨S4x2048x2048, .i32⟩
  | .hbm, ⟨9, _⟩ => ⟨S4x2048x2048, .i32⟩
  | .hbm, ⟨10, _⟩ => ⟨S4x2048x2048, .i32⟩
  | .hbm, ⟨11, _⟩ => ⟨S4x2048x2048x1, .i32⟩
  | .hbm, ⟨12, _⟩ => ⟨S1, .i32⟩
  | .hbm, ⟨13, _⟩ => ⟨S_, .i32⟩
  | .hbm, ⟨14, _⟩ => ⟨S4x2048x2048x1, .i32⟩
  | .hbm, ⟨15, _⟩ => ⟨S4x2048x2048x1, .i1⟩
  | .hbm, ⟨16, _⟩ => ⟨S1x1x1x1, .i32⟩
  | .hbm, ⟨17, _⟩ => ⟨S4x2048x2048x1, .i32⟩
  | .hbm, ⟨18, _⟩ => ⟨S4x2048x2048x1, .i1⟩
  | .hbm, ⟨19, _⟩ => ⟨S4x2048x2048x1, .i1⟩
  | .hbm, ⟨20, _⟩ => ⟨S_, .i1⟩
  | .hbm, ⟨21, _⟩ => ⟨S4x2048x2048, .i1⟩
  | .hbm, ⟨22, _⟩ => ⟨S4x2048x2048x12, .f32⟩
  | .hbm, ⟨23, _⟩ => ⟨S4x2048x2048x12, .i1⟩
  | .hbm, ⟨24, _⟩ => ⟨S_, .f32⟩
  | .hbm, ⟨25, _⟩ => ⟨S4x2048x2048x12, .f32⟩
  | .hbm, ⟨26, _⟩ => ⟨S4x2048x2048x12, .f32⟩
  | _, _ => ⟨S4x2048x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v1 : Ref sig .tc := ⟨.hbm, 26, rfl⟩

abbrev nD : Nat := 1
abbrev τ : Topo := Topo.v7x

variable {F : FTy → Type} [FloatOps F]

class Facts₀ : Prop where
  transposes_S12x64_S64x12_1_0 : S12x64.Transposes [1, 0] S64x12
  bcast_S_S4x2048x2048 : S_.BroadcastsInDim S4x2048x2048 (![] : Fin 0 → Fin S4x2048x2048.rank)
  bcast_S4x2048x2048_S4x2048x2048x1_0_1_2 : S4x2048x2048.BroadcastsInDim S4x2048x2048x1 (![0, 1, 2] : Fin 3 → Fin S4x2048x2048x1.rank)
  bcast_S_S4x2048x2048x1 : S_.BroadcastsInDim S4x2048x2048x1 (![] : Fin 0 → Fin S4x2048x2048x1.rank)
  bcast_S1_S1x1x1x1_3 : S1.BroadcastsInDim S1x1x1x1 (![3] : Fin 1 → Fin S1x1x1x1.rank)
  bcast_S1x1x1x1_S4x2048x2048x1_0_1_2_3 : S1x1x1x1.BroadcastsInDim S4x2048x2048x1 (![0, 1, 2, 3] : Fin 4 → Fin S4x2048x2048x1.rank)
  reducesTo_S4x2048x2048x1_S4x2048x2048_d3 : S4x2048x2048x1.ReducesTo [3] S4x2048x2048
  h_S_ : 0 < S_.numel
  bcast_S4x2048x2048_S4x2048x2048x12_0_1_2 : S4x2048x2048.BroadcastsInDim S4x2048x2048x12 (![0, 1, 2] : Fin 3 → Fin S4x2048x2048x12.rank)
  bcast_S_S4x2048x2048x12 : S_.BroadcastsInDim S4x2048x2048x12 (![] : Fin 0 → Fin S4x2048x2048x12.rank)
  gather_S64x12_S4x2048x2048x1_S4x2048x2048x12_3_0_n_n_0_3_112_wf : GatherDims.WF S64x12 S4x2048x2048x1 S4x2048x2048x12 [3] [0] [] [0] [] 3 ![1, 12]

variable [Facts₀]

def gather_S64x12_S4x2048x2048x1_S4x2048x2048x12_3_0_n_n_0_3_112 : GatherDims S64x12 S4x2048x2048x1 S4x2048x2048x12 where
  offsetDims := [3]
  collapsedSliceDims := [0]
  operandBatchingDims := []
  startIndicesBatchingDims := []
  startIndexMap := [0]
  indexVectorDim := 3
  sliceSizes := ![1, 12]
  wf := gather_S64x12_S4x2048x2048x1_S4x2048x2048x12_3_0_n_n_0_3_112_wf

class Facts : Prop extends Facts₀ where

variable [Facts]
-- ==== Proof.LibPlainDot.lean ====
/-
  General facts about a matrix product of the plain kind, read at one entry on the extended reals.

  The product of an M x K left operand with a K x N right operand, no batch axis, the left contracted on its second
  axis and the right on its first, accumulated into the zero array: entry (a, j) is the sum over k of
  left (a, k) * right (k, j).  The contraction index of such a product has one axis, of extent K, and is re-indexed by
  its one coordinate; the operand indices at output (a, j) and contraction k are (a, k) and (k, j).

  A column [M, 1] broadcast along the second axis to [M, N] reads, at (a, j), the column's entry (a, 0).

  A record of dimension numbers printed with a program is this plain one whenever its six lists are
  [1], [0], [0], [1], [], [] (the seventh field is a proof), by reflexivity; the lemmas are stated for
  DotDims.plain M K N so that they serve every such record.
-/
import Idealize.ShloMosaic.PureOps.Ideal.Laws
import Idealize.ShloMosaic.Lib.ValueIdx
import Idealize.ShloMosaic.Lib.Pipeline.Value

noncomputable section

namespace Cert.LibPlainDot

open Idealize.ShloMosaic Idealize.ShloMosaic.ValueIdx

variable (M K N : Nat)

/-- The left operand's row coordinate at output index j is j's row. -/
theorem plain_lhs_row (j : (⟨2, ![M, N]⟩ : Shape).Idx) (q : (DotDims.plain M K N).contr.Idx) :
    ((DotDims.plain M K N).lhsIdx j q 0).val = (j 0).val := rfl
/-- The left operand's column coordinate is the contraction index's one coordinate. -/
theorem plain_lhs_col (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q
/-- The right operand's row coordinate is the contraction index's one coordinate. -/
theorem plain_rhs_row (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q
/-- The right operand's column coordinate at output index j is j's column. -/
theorem plain_rhs_col (j : (⟨2, ![M, N]⟩ : Shape).Idx) (q : (DotDims.plain M K N).contr.Idx) :
    ((DotDims.plain M K N).rhsIdx j q 1).val = (j 1).val := rfl

/-- A plain matrix product into the zero accumulator, at entry (a, j): the sum over k of W (a, k) * X (k, j). -/
theorem matmul_plain_zero (W : FVec Ideal ⟨2, ![M, K]⟩ .f32) (X : FVec Ideal ⟨2, ![K, N]⟩ .f32) (a : Fin M) (j : Fin N) :
    matmul (DotDims.plain M K N) none W X (constant ⟨2, ![M, N]⟩ .f32 0x00000000#32) (ix2 a j)
      = ∑ k : Fin K, W (ix2 a k) * X (ix2 k j) := by
  simp only [matmul]
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 a j) ((contrEquiv1 (DotDims.plain M K N) K rfl rfl).symm k) = ix2 a k :=
    funext fun b => Fin.ext (by
      match b with
      | ⟨0, _⟩ => exact plain_lhs_row M K N _ _
      | ⟨1, _⟩ => exact (plain_lhs_col M K N _ _).trans hk)
  have er : (DotDims.plain M K N).rhsIdx (ix2 a j) ((contrEquiv1 (DotDims.plain M K N) K rfl rfl).symm k) = ix2 k j :=
    funext fun b => Fin.ext (by
      match b with
      | ⟨0, _⟩ => exact (plain_rhs_row M K N _ _).trans hk
      | ⟨1, _⟩ => exact plain_rhs_col M K N _ _)
  rw [el, er]

/-- A column broadcast along the second axis reads the column's entry of the same row. -/
theorem broadcast_col {α : Type} (b : (⟨2, ![M, 1]⟩ : Shape).Idx → α) (hb : (⟨2, ![M, 1]⟩ : Shape).Broadcasts ⟨2, ![M, N]⟩)
    (a : Fin M) (j : Fin N) : broadcastTo ⟨2, ![M, N]⟩ b hb (ix2 a j) = b (ix2 a 0) :=
  broadcastTo_apply b hb (ix2 a j) (ix2 a 0) (fun ax => by
    match ax with
    | ⟨0, _⟩ =>
      show a.val = if M = 1 then 0 else a.val
      split
      · have := a.isLt; omega
      · rfl
    | ⟨1, _⟩ =>
      show 0 = if (1 : Nat) = 1 then 0 else j.val
      rw [if_pos rfl])

end Cert.LibPlainDot

end
-- ==== Proof.LibPlainAny.lean ====
/-
  A plain matrix product on the extended reals, whatever float formats its operands carry.

  The product of an M x K left operand with a K x N right operand (no batch axis, the left contracted on its
  second axis, the right on its first) has at entry (a, j) the value: sum over k of left (a, k) * right (k, j).
  On the extended reals a change of float format is the identity, so this reading does not depend on the
  operands' formats: it holds for a kernel's product of bf16 operands accumulated into the f32 zero array,
  and for the host's product, which has no accumulator, alike.

  The contraction index of a plain product has one axis of extent K; re-indexed by its one coordinate k, the
  operand indices at output (a, j) are (a, k) and (k, j).
-/
import proofs.«404445_j67319317397983_2_alg».proof.Proof.LibPlainDot

noncomputable section

namespace Cert.LibPlainAny

open Idealize.ShloMosaic Idealize.ShloMosaic.ValueIdx

variable (M K N : Nat)

/-- The left operand's index at output (a, j) and contraction coordinate k is (a, k). -/
theorem plain_lhsIdx (a : Fin M) (j : Fin N) (k : Fin K) :
    (DotDims.plain M K N).lhsIdx (ix2 a j) ((contrEquiv1 (DotDims.plain M K N) K rfl rfl).symm k) = ix2 a k :=
  funext fun b => Fin.ext (by
    have hk := contrEquiv1_symm_val (DotDims.plain M K N) K rfl rfl k
    match b with
    | ⟨0, _⟩ => exact Cert.LibPlainDot.plain_lhs_row M K N _ _
    | ⟨1, _⟩ => exact (Cert.LibPlainDot.plain_lhs_col M K N _ _).trans hk)

/-- The right operand's index at output (a, j) and contraction coordinate k is (k, j). -/
theorem plain_rhsIdx (a : Fin M) (j : Fin N) (k : Fin K) :
    (DotDims.plain M K N).rhsIdx (ix2 a j) ((contrEquiv1 (DotDims.plain M K N) K rfl rfl).symm k) = ix2 k j :=
  funext fun b => Fin.ext (by
    have hk := contrEquiv1_symm_val (DotDims.plain M K N) K rfl rfl k
    match b with
    | ⟨0, _⟩ => exact (Cert.LibPlainDot.plain_rhs_row M K N _ _).trans hk
    | ⟨1, _⟩ => exact Cert.LibPlainDot.plain_rhs_col M K N _ _)

/-- A kernel's plain product into the zero array, operands of any formats, at entry (a, j). -/
theorem matmul_plain_zero_any {φ₁ φ₂ : FTy} (W : FVec Ideal ⟨2, ![M, K]⟩ φ₁) (X : FVec Ideal ⟨2, ![K, N]⟩ φ₂)
    (a : Fin M) (j : Fin N) :
    matmul (DotDims.plain M K N) none W X (constant ⟨2, ![M, N]⟩ .f32 0x00000000#32) (ix2 a j)
      = ∑ k : Fin K, (W (ix2 a k) : EReal) * (X (ix2 k j) : EReal) := by
  simp only [matmul]
  rw [Ideal.matmul_constant_zero_apply, ← Equiv.sum_comp (contrEquiv1 (DotDims.plain M K N) K rfl rfl).symm]
  refine Finset.sum_congr rfl fun k _ => ?_
  rw [plain_lhsIdx, plain_rhsIdx]

/-- The host's plain product, operands of any formats, at entry (a, j). -/
theorem dotGeneral_plain_any {φ₁ φ₂ : FTy} (W : FVec Ideal ⟨2, ![M, K]⟩ φ₁) (X : FVec Ideal ⟨2, ![K, N]⟩ φ₂)
    (a : Fin M) (j : Fin N) :
    Host.dotGeneral (DotDims.plain M K N) none W X (ix2 a j)
      = ∑ k : Fin K, (W (ix2 a k) : EReal) * (X (ix2 k j) : EReal) := by
  simp only [Host.dotGeneral]
  rw [Ideal.dotGeneral_apply, ← Equiv.sum_comp (contrEquiv1 (DotDims.plain M K N) K rfl rfl).symm]
  refine Finset.sum_congr rfl fun k _ => ?_
  rw [plain_lhsIdx, plain_rhsIdx]

end Cert.LibPlainAny

end
-- ==== Proof.LibOneHot.lean ====
/-
  A one-hot column against a row of extended reals.

  The word comparing an index word r with the class number k, widened to 32 bits and read as a signed integer, is 1
  when r is the class k and 0 otherwise.  A row w of extended reals summed against that column picks the one entry
  w r: every other product is w k * 0 = 0, which holds on the extended reals for infinite w k as well, so no
  finiteness is needed.
-/
import Idealize.ShloMosaic.PureOps.Ideal.Laws
import Idealize.ShloMosaic.Lib.ValueIdx

noncomputable section

namespace Cert.LibOneHot

open Idealize.ShloMosaic Idealize.ShloMosaic.ValueIdx

/-- The entry of a one-hot column over K classes: the comparison word of r with class k, widened and converted. -/
def hot (r : BitVec 32) (k : Nat) : EReal :=
  ((((IntOp.cmpi .eq r (BitVec.ofNat 32 k)).setWidth 32).toInt : ℝ) : EReal)

/-- At the class the index word names the entry is one. -/
theorem hot_self (r : BitVec 32) (k : Nat) (h : r = BitVec.ofNat 32 k) : hot r k = 1 := by
  unfold hot
  have e : IntOp.cmpi .eq r (BitVec.ofNat 32 k) = 1#1 := by
    subst h; simp [IntOp.cmpi]
  rw [e]
  have : ((1#1 : BitVec 1).setWidth 32).toInt = 1 := by decide
  rw [this]; simp

/-- At any other class it is zero. -/
theorem hot_ne (r : BitVec 32) (k : Nat) (h : r ≠ BitVec.ofNat 32 k) : hot r k = 0 := by
  unfold hot
  have e : IntOp.cmpi .eq r (BitVec.ofNat 32 k) = 0#1 := by
    have hb : (r == BitVec.ofNat 32 k) = false := beq_eq_false_iff_ne.mpr h
    simp [IntOp.cmpi, hb]
  rw [e]
  have : ((0#1 : BitVec 1).setWidth 32).toInt = 0 := by decide
  rw [this]; simp

/-- A row summed against the one-hot column of an index word below K is the row's entry at that index. -/
theorem sum_mul_hot {K : Nat} (hK : K ≤ 2 ^ 32) (w : Fin K → EReal) (r : BitVec 32) (hr : r.toNat < K) :
    ∑ k : Fin K, w k * hot r k.val = w ⟨r.toNat, hr⟩ := by
  rw [Finset.sum_eq_single (⟨r.toNat, hr⟩ : Fin K)]
  · rw [hot_self r r.toNat (by simp), mul_one]
  · intro k _ hk
    rw [hot_ne r k.val (fun e => hk (Fin.ext (by
      have hk2 : k.val < 2 ^ 32 := lt_of_lt_of_le k.isLt hK
      have := congrArg BitVec.toNat e
      rw [BitVec.toNat_ofNat, Nat.mod_eq_of_lt hk2] at this
      exact this.symm))), mul_zero]
  · intro h; exact absurd (Finset.mem_univ _) h

end Cert.LibOneHot

end
-- ==== Proof.Payload.lean ====
/-
  One entry of the kernel body's product.

  The body compares the tile's row of index words, repeated down 64 rows, with the row number (a one-hot array of
  64 classes by 32768 positions), and multiplies the 12 x 64 table by it into the zero array.  Entry (h, l) of the
  result is the sum over the 64 classes k of table (h, k) times the one-hot entry (k, l), the latter being the
  comparison word of the tile's index word at position l with k.
-/
import proofs.«404445_j67319317397983_2_alg».proof.Proof.Gen.KernelIdeal.Skeleton
import proofs.«404445_j67319317397983_2_alg».proof.Proof.LibPlainAny
import proofs.«404445_j67319317397983_2_alg».proof.Proof.LibOneHot
import Idealize.ShloMosaic.Lib.Pipeline.Value

noncomputable section

namespace Cert.KernelIdeal.Pay

open Cert.KernelIdeal Cert.KernelIdeal.Gen Idealize.ShloMosaic Idealize.ShloMosaic.ValueIdx Cert.LibOneHot

/-- The one-hot array read at class k and position l. -/
theorem onehot_apply (x0 : Vec Ideal S1x32768 .i32) (hc : S1x32768.ShapeCasts S1x32768) (hb : S1x32768.Broadcasts S64x32768)
    (hi : S64x32768.Iotas .tc 32 [0]) (k : Fin 64) (l : Fin 32768) :
    cmpi .eq (broadcastTo S64x32768 (shapeCast S1x32768 (shapeCast S1x32768 x0 hc) hc) hb) (iota .tc S64x32768 32 [0] hi) (ix2 k l)
      = IntOp.cmpi .eq (x0 (ix2 0 l)) (BitVec.ofNat 32 k.val) := by
  show IntOp.cmpi .eq (broadcastTo S64x32768 (shapeCast S1x32768 (shapeCast S1x32768 x0 hc) hc) hb (ix2 k l))
    (iota .tc S64x32768 32 [0] hi (ix2 k l)) = _
  rw [iota_single_apply, shapeCast_self, shapeCast_self,
    broadcastTo_apply x0 hb (ix2 k l) (ix2 0 l) (fun a => by
      match a with
      | ⟨0, _⟩ => rfl
      | ⟨1, _⟩ => rfl)]

/-- Entry (h, l) of the body's product: the table's row h summed against the one-hot column of position l. -/
theorem pay_apply (x0 : Vec Ideal S1x32768 .i32) (x1 : Vec Ideal S12x64 .f32) (h : Fin 12) (l : Fin 32768) :
    k0_pay1 (F := Ideal) x0 x1 (ix2 h l) = ∑ k : Fin 64, x1 (ix2 h k) * hot (x0 (ix2 0 l)) k.val := by
  unfold k0_pay1
  refine (Cert.LibPlainAny.matmul_plain_zero_any 12 64 32768 _ _ h l).trans ?_
  refine Finset.sum_congr rfl fun k _ => ?_
  congr 1
  show ((((cmpi .eq _ _ (ix2 k l)).setWidth 32).toInt : ℝ) : EReal) = _
  rw [onehot_apply]
  rfl

end Cert.KernelIdeal.Pay

end
-- ==== Proof.KernelValue.lean ====
/-
  What the kernel's program leaves in its result.

  The region runs 512 tiles.  Tile t reads positions [32768 t, 32768 (t + 1)) of the flat row of index words and the
  whole 12 x 64 table, and writes columns [32768 t, 32768 (t + 1)) of the 12 x 16777216 result: its block is the
  table times the one-hot array of its index words.  So every tile's block is the restriction of ONE array, the
  product array whose entry (h, n) sums the table's row h against the one-hot column of the flat index word n; the
  tiles' blocks cover every column (column n is in tile n / 32768), hence the array after the region is the product
  array.  Before the region the index array is clamped into [0, 63] and laid out as one row; after it the product
  array is transposed and laid out over the index array's axes.
-/
import proofs.«404445_j67319317397983_2_alg».proof.Proof.Gen.KernelIdeal.Frame
import proofs.«404445_j67319317397983_2_alg».proof.Proof.Payload
import Idealize.ShloMosaic.Lib.Pipeline.Value
import Idealize.ShloMosaic.Lib.StableHlo.Run

set_option maxRecDepth 16384

noncomputable section

namespace Cert.KernelIdeal.KV

open Cert.KernelIdeal Cert.KernelIdeal.Gen Idealize.ShloMosaic Idealize.ShloMosaic.TcCoe Idealize.SL.Sem
open Idealize.ShloMosaic.ValueIdx Cert.LibOneHot
open Idealize.ShloMosaic.Pipeline (Dat Cfg Window)

variable (m : (ℓ : Loc nD τ sig) → Buf (Elt Ideal) ℓ) (ρ : Dev nD → PrngReg)

theorem hz : (![0, 0] : Fin 2 → Nat) = fun _ => 0 := funext fun a => by fin_cases a <;> rfl

/-- Every tile's block indices: the index row's and the result's blocks are the tile's, the table's is the whole table. -/
theorem idx_facts : ∀ t : Fin cfg0.N, win0_0.index t (0 : Fin 2) = 0 ∧ win0_0.index t (1 : Fin 2) = t.val
    ∧ win0_1.index t (0 : Fin 2) = 0 ∧ win0_1.index t (1 : Fin 2) = 0
    ∧ win0_2.index t (0 : Fin 2) = 0 ∧ win0_2.index t (1 : Fin 2) = t.val :=
  (by decide +kernel : ∀ t : Fin grid0.N, _)

/-- The product array: entry (h, n) sums the table's row h against the one-hot column of the flat index word n. -/
def prodArr (relFlat : S1x16777216.Idx → BitVec 32) (W : S12x64.Idx → EReal) : S12x16777216.Idx → EReal :=
  fun i => ∑ k : Fin 64, W (ix2 (i 0) k) * hot (relFlat (ix2 0 (i 1))) k.val

theorem pay_at (x0 : Vec Ideal S1x32768 .i32) (x1 : Vec Ideal S12x64 .f32) (j : S12x32768.Idx) :
    k0_pay1 (F := Ideal) x0 x1 j = ∑ k : Fin 64, x1 (ix2 (j 0) k) * hot (x0 (ix2 0 (j 1))) k.val := by
  exact (congrArg (k0_pay1 (F := Ideal) x0 x1) (eq_ix2 j)).trans (Cert.KernelIdeal.Pay.pay_apply x0 x1 (j 0) (j 1))

/-- What tile t writes back is its block of the product array of the flat index row and the table as the region finds them. -/
theorem flushed_eq (c : Dev nD) (t : Fin cfg0.N) :
    (dats m 0 c).flushed 2 t = ((cfg0.win 2).blk t).view.read (Elt Ideal) (prodArr (V m c main_v1) (V m c main_arg2)) := by
  show (cfg0.win 2).cut (grid0.coords t) ((dats m 0 c).after 2 t) = _
  rw [after0_2]
  unfold out0_2
  rw [View.canon_unit_zero hz]
  simp only [View.ld_unit_zero (S := S1x32768) hz, View.ld_unit_zero (S := S12x64) hz]
  obtain ⟨e0, e1, e2, e3, e4, e5⟩ := idx_facts t
  funext j
  show k0_pay1 (F := Ideal) (iblk m c 0 t) (iblk m c 1 t) j = prodArr (V m c main_v1) (V m c main_arg2) (((cfg0.win 2).blk t).view.emb j)
  refine (pay_at (iblk m c 0 t) (iblk m c 1 t) j).trans ?_
  unfold prodArr
  refine Finset.sum_congr rfl fun k _ => ?_
  have hW : iblk m c 1 t (ix2 (j 0) k) = V m c main_arg2 (ix2 ((((cfg0.win 2).blk t).view.emb j) 0) k) := by
    show V m c main_arg2 (((cfg0.win 1).blk t).view.emb (ix2 (j 0) k)) = _
    refine congrArg _ (funext fun a => Fin.ext ?_)
    match a with
    | ⟨0, _⟩ => show win0_1.index t (0 : Fin 2) * 12 + 1 * (j 0).val = win0_2.index t (0 : Fin 2) * 12 + 1 * (j 0).val; omega
    | ⟨1, _⟩ => show win0_1.index t (1 : Fin 2) * 64 + 1 * k.val = k.val; omega
  have hR : iblk m c 0 t (ix2 0 (j 1)) = V m c main_v1 (ix2 0 ((((cfg0.win 2).blk t).view.emb j) 1)) := by
    show V m c main_v1 (((cfg0.win 0).blk t).view.emb (ix2 0 (j 1))) = _
    refine congrArg _ (funext fun a => Fin.ext ?_)
    match a with
    | ⟨0, _⟩ => show win0_0.index t (0 : Fin 2) * 1 + 1 * 0 = 0; omega
    | ⟨1, _⟩ => show win0_0.index t (1 : Fin 2) * 32768 + 1 * (j 1).val = win0_2.index t (1 : Fin 2) * 32768 + 1 * (j 1).val; omega
  rw [hW, hR]

/-- An index of the result array is in tile t's block when each coordinate is in the block's range. -/
theorem mem_blk (t : Fin cfg0.N) (i : S12x16777216.Idx) :
    i ∈ ((cfg0.win 2).blk t).view.set ↔ ∀ a : Fin 2, win0_2.index t a * S12x32768.size a ≤ (i a).val ∧ (i a).val < win0_2.index t a * S12x32768.size a + S12x32768.size a := by
  show i ∈ ((View.whole main_v2).slice (win0_2.rect t)).set ↔ _
  rw [View.set_slice_whole, Rect.mem_set_unit]
  exact Iff.rfl

/-- Every index of the result array is in the block of the tile its column falls in. -/
theorem cover (i : S12x16777216.Idx) : ∃ t : Fin cfg0.N, (cfg0.win 2).flush t = true ∧ i ∈ ((cfg0.win 2).blk t).view.set := by
  have hi0 : (i 0).val < 12 := (i 0).isLt
  have hi1 : (i 1).val < 16777216 := (i 1).isLt
  have hN : cfg0.N = 512 := N_0
  let t : Fin cfg0.N := ⟨(i 1).val / 32768, by rw [hN]; omega⟩
  have htv : t.val = (i 1).val / 32768 := rfl
  refine ⟨t, flush0_2 t, ?_⟩
  rw [mem_blk]
  obtain ⟨-, -, -, -, e4, e5⟩ := idx_facts t
  intro a
  match a with
  | ⟨0, _⟩ => show win0_2.index t (0 : Fin 2) * 12 ≤ (i 0).val ∧ (i 0).val < win0_2.index t (0 : Fin 2) * 12 + 12; omega
  | ⟨1, _⟩ => show win0_2.index t (1 : Fin 2) * 32768 ≤ (i 1).val ∧ (i 1).val < win0_2.index t (1 : Fin 2) * 32768 + 32768; omega

/-- The result array after the region. -/
theorem final (c : Dev nD) : (dats m 0 c).arrAt 2 cfg0.N = prodArr (V m c main_v1) (V m c main_arg2) :=
  (dats m 0 c).arrAt_eq_of_cover 2 _ (fun t _ => flushed_eq m c t) cover

/-- The index array clamped into [0, 63]: the greater of 0 and the word, then the lesser of 63 and that. -/
def clipped (rel : IVec S4x2048x2048 32) : IVec S4x2048x2048 32 :=
  minsi (broadcastInDim S4x2048x2048 ![] bcast_S_S4x2048x2048 (constantI S_ 32 63#32))
    (maxsi (broadcastInDim S4x2048x2048 ![] bcast_S_S4x2048x2048 (constantI S_ 32 0#32)) rel)

/-- The flat index row the region finds: the clamped index array laid out as one row. -/
theorem v1_eq (c : Dev nD) : (V m c main_v1 : S1x16777216.Idx → BitVec 32)
    = shapeCast S1x16777216 (clipped (m ((c : Thread nD τ).loc main_arg0))) shapeCasts_S4x2048x2048_S1x16777216 := by
  dsimp only [V, V0]
  simp only [hostOps0, hostOps0_1, hostOps0_2, List.flatten_cons, List.flatten_nil, List.append_nil, List.cons_append, List.nil_append]
  after_results
  simp only [StableHlo.TRef.toBuf, StableHlo.TRef.ofBuf, cast_eq, id]
  rfl

/-- The program's result: the product array transposed to positions by heads and laid out over the index array's axes. -/
def resultOf (relFlat : S1x16777216.Idx → BitVec 32) (W : S12x64.Idx → EReal) : S4x2048x2048x12.Idx → EReal :=
  shapeCast S4x2048x2048x12 (transpose S16777216x12 [1, 0] (prodArr relFlat W) transposes_S12x16777216_S16777216x12_1_0)
    shapeCasts_S16777216x12_S4x2048x2048x12

/-- The two operations after the region, applied to what the region left. -/
theorem tail_eq (c : Dev nD) : Pipeline.afterTail₀ cfgs (dats m) 0 (V0 m) [hostOps1] c main_v4
    = resultOf (V m c main_v1) (V m c main_arg2) := by
  unfold Pipeline.afterTail₀
  show StableHlo.after hostOps1 _ (Proc.devRef .tc main_v4) = _
  after_results
  have hw : Pipeline.withArrays (cfgs 0).spec c (V0 m c) (fun w => (dats m 0 c).arrAt w (cfgs 0).N) (Proc.devRef .tc main_v2)
      = prodArr (V m c main_v1) (V m c main_arg2) :=
    (Pipeline.withArrays_arr spec0 launch0.win.arr_inj c _ _ 2).trans (final m c)
  rw [hw]
  rfl

/-- Every weakly fair execution of the kernel's program terminates with its result at that term of the arguments as
    launched, and the arguments unchanged. -/
theorem run : θ_run defs (onTc (τ := τ) (main (F := Ideal))) ⟨m, fun _ => 0, ρ⟩ (fun r => ∀ c : Dev nD,
      r.2.mem ((c.tc : Thread nD τ).loc main_v4)
          = resultOf (shapeCast S1x16777216 (clipped (m ((c : Thread nD τ).loc main_arg0))) shapeCasts_S4x2048x2048_S1x16777216)
              (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨
      (((h c).2 main_v4 (Pipeline.mem_restRefs_of main_v4 (by decide) (by decide))).trans (tail_eq m c)).trans
        (by rw [v1_eq m c, V_main_arg2 m c]),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      ((h c).1 1).trans (((dats m 0 c).arrAt_in 1 rfl _).trans ((A_eq m c 1).trans (V_main_arg2 m c)))⟩) (run_main m ρ)

end Cert.KernelIdeal.KV

end
-- ==== Proof.Lookup.lean ====
/-
  The function both programs compute: a table lookup.

  For an index array rel : [4, 2048, 2048] of words in [0, 64) and a table W : [12, 64] of extended reals, entry
  (a, b, c, h) of the result is W (h, rel (a, b, c)).  (The index is written modulo 64 so that the definition needs no
  hypothesis; on words below 64 that changes nothing.)
-/
import Idealize.ShloMosaic.PureOps.Ideal.Laws
import Idealize.ShloMosaic.Lib.ValueIdx

noncomputable section

namespace Cert.Lookup

open Idealize.ShloMosaic Idealize.ShloMosaic.ValueIdx

/-- Entry (a, b, c, h) is the table's entry at head h and class rel (a, b, c). -/
def lookup (rel : (⟨3, ![4, 2048, 2048]⟩ : Shape).Idx → BitVec 32) (W : (⟨2, ![12, 64]⟩ : Shape).Idx → EReal) :
    (⟨4, ![4, 2048, 2048, 12]⟩ : Shape).Idx → EReal :=
  fun i => W (ix2 (i 3) ⟨(rel (ix3 (i 0) (i 1) (i 2))).toNat % 64, Nat.mod_lt _ (by decide)⟩)

/-- At coordinates, for an index word below 64. -/
theorem lookup_apply (rel : (⟨3, ![4, 2048, 2048]⟩ : Shape).Idx → BitVec 32) (W : (⟨2, ![12, 64]⟩ : Shape).Idx → EReal)
    (a : Fin 4) (b : Fin 2048) (c : Fin 2048) (h : Fin 12) (hr : (rel (ix3 a b c)).toNat < 64) :
    lookup rel W (ix4 a b c h) = W (ix2 h ⟨(rel (ix3 a b c)).toNat, hr⟩) := by
  unfold lookup
  refine congrArg W (congrArg (ix2 h) (Fin.ext ?_))
  exact Nat.mod_eq_of_lt hr

end Cert.Lookup

end
-- ==== Proof.KernelEntry.lean ====
/-
  The kernel program's result, entry by entry, is the table lookup.

  The result array [4, 2048, 2048, 12] is the [16777216, 12] transpose of the region's [12, 16777216] product laid out
  over the index array's axes: entry (a, b, c, h) is the product's entry (h, n), n = (a * 2048 + b) * 2048 + c the
  position of (a, b, c) in the flat index row.  That entry sums the table's row h against the one-hot column of the
  clamped index word at (a, b, c); the clamp changes no word in [0, 64), and the sum picks the table's entry at that
  word.
-/
import proofs.«404445_j67319317397983_2_alg».proof.Proof.KernelValue
import proofs.«404445_j67319317397983_2_alg».proof.Proof.Lookup

noncomputable section

namespace Cert.KernelIdeal.KE

open Cert.KernelIdeal Cert.KernelIdeal.Gen Cert.KernelIdeal.KV Idealize.ShloMosaic Idealize.ShloMosaic.ValueIdx Cert.LibOneHot

/-- Clamping a word of [0, 64) into [0, 63] leaves it. -/
theorem clip_word (r : BitVec 32) (hr : r.toNat < 64) : IntOp.minsi 63#32 (IntOp.maxsi 0#32 r) = r := by
  have e : r.toInt = r.toNat := BitVec.toInt_eq_toNat_of_lt (by omega)
  have z0 : (0#32 : BitVec 32).toInt = 0 := by decide
  have z63 : (63#32 : BitVec 32).toInt = 63 := by decide
  have h1 : IntOp.maxsi 0#32 r = r := by
    unfold IntOp.maxsi
    rw [if_neg]
    rw [BitVec.slt_iff_toInt_lt]
    omega
  rw [h1]
  unfold IntOp.minsi
  rw [if_neg]
  rw [BitVec.slt_iff_toInt_lt]
  omega

theorem clipped_apply (rel : IVec S4x2048x2048 32) (j : S4x2048x2048.Idx) (hr : (rel j).toNat < 64) : clipped rel j = rel j :=
  clip_word (rel j) hr

/-- The kernel program's result is the lookup, when every index word is below 64. -/
theorem result_eq (rel : IVec S4x2048x2048 32) (W : S12x64.Idx → EReal) (hr : ∀ j, (rel j).toNat < 64) :
    resultOf (shapeCast S1x16777216 (clipped rel) shapeCasts_S4x2048x2048_S1x16777216) W = Cert.Lookup.lookup rel W := by
  funext i
  obtain ⟨a, b, c, q, rfl⟩ : ∃ (a : Fin 4) (b : Fin 2048) (c : Fin 2048) (q : Fin 12), i = ix4 a b c q :=
    ⟨i 0, i 1, i 2, i 3, eq_ix4 i⟩
  have hn : (a.val * 2048 + b.val) * 2048 + c.val < 16777216 := by omega
  rw [Cert.Lookup.lookup_apply rel W a b c q (hr _)]
  unfold resultOf
  rw [shapeCast_apply _ _ (ix4 a b c q) (ix2 (⟨(a.val * 2048 + b.val) * 2048 + c.val, hn⟩ : Fin 16777216) q)
      (by rw [Shape.rowMajor_val_two, Shape.rowMajor_val_four]; rfl),
    transpose_apply _ _ _ (ix2 (⟨(a.val * 2048 + b.val) * 2048 + c.val, hn⟩ : Fin 16777216) q)
      (ix2 q (⟨(a.val * 2048 + b.val) * 2048 + c.val, hn⟩ : Fin 16777216))
      (fun bx => by match bx with | ⟨0, _⟩ => rfl | ⟨1, _⟩ => rfl)]
  unfold prodArr
  show ∑ k : Fin 64, W (ix2 q k) * hot (shapeCast S1x16777216 (clipped rel) shapeCasts_S4x2048x2048_S1x16777216
      (ix2 0 (⟨(a.val * 2048 + b.val) * 2048 + c.val, hn⟩ : Fin 16777216))) k.val = _
  rw [shapeCast_apply (clipped rel) _ (ix2 0 (⟨(a.val * 2048 + b.val) * 2048 + c.val, hn⟩ : Fin 16777216)) (ix3 a b c)
      (by rw [Shape.rowMajor_val_two, Shape.rowMajor_val_three]
          show (a.val * 2048 + b.val) * 2048 + c.val = 0 * 16777216 + ((a.val * 2048 + b.val) * 2048 + c.val)
          omega),
    clipped_apply rel (ix3 a b c) (hr _)]
  exact sum_mul_hot (K := 64) (by decide) (fun k => W (ix2 q k)) (rel (ix3 a b c)) (hr _)

end Cert.KernelIdeal.KE

end
-- ==== Proof.RefTerm.lean ====
/-
  The reference's result as one term of its arguments.

  The reference transposes the 12 x 64 table to 64 rows of 12, and takes its rows at the index array: an index below
  zero has 64 added, the row is gathered (the gather clamps the start index into the table), and where the adjusted
  index is outside [0, 63] the gathered row is replaced by the fill value.
-/
import proofs.«404445_j67319317397983_2_alg».proof.Proof.Gen.ReferenceIdeal

noncomputable section

namespace Cert.ReferenceIdeal.RefRun

open Cert.ReferenceIdeal Cert.ReferenceIdeal.Gen Idealize.ShloMosaic Idealize.SL.Sem

variable {F : FTy → Type} [FloatOps F]

/-- The adjusted index: an index word below zero has 64 added. -/
def adjusted (rel : IVec S4x2048x2048 32) : IVec S4x2048x2048 32 :=
  select (cmpi .slt rel (broadcastInDim S4x2048x2048 ![] bcast_S_S4x2048x2048 (constantI S_ 32 0#32)))
    (addi rel (broadcastInDim S4x2048x2048 ![] bcast_S_S4x2048x2048 (constantI S_ 32 64#32))) rel

/-- The adjusted index as a column of start indices. -/
def starts (rel : IVec S4x2048x2048 32) : IVec S4x2048x2048x1 32 :=
  broadcastInDim S4x2048x2048x1 ![0, 1, 2] bcast_S4x2048x2048_S4x2048x2048x1_0_1_2 (adjusted rel)

/-- Where the adjusted index lies in [0, 63]. -/
def inTable (rel : IVec S4x2048x2048 32) : IVec S4x2048x2048 1 :=
  Host.reduce IntOp.andi
    (andi (cmpi .sge (starts rel) (broadcastInDim S4x2048x2048x1 ![] bcast_S_S4x2048x2048x1 (constantI S_ 32 0#32)))
      (cmpi .sle (starts rel) (broadcastInDim S4x2048x2048x1 ![0, 1, 2, 3] bcast_S1x1x1x1_S4x2048x2048x1_0_1_2_3
        (broadcastInDim S1x1x1x1 ![3] bcast_S1_S1x1x1x1_3 (constantI S1 32 63#32)))))
    (constantI S_ 1 1#1) reducesTo_S4x2048x2048x1_S4x2048x2048_d3 h_S_

/-- The reference's result as one term of the table and the index array. -/
def taken (W : FVec F S12x64 .f32) (rel : IVec S4x2048x2048 32) : FVec F S4x2048x2048x12 .f32 :=
  select (broadcastInDim S4x2048x2048x12 ![0, 1, 2] bcast_S4x2048x2048_S4x2048x2048x12_0_1_2 (inTable rel))
    (Host.gather gather_S64x12_S4x2048x2048x1_S4x2048x2048x12_3_0_n_n_0_3_112
      (transpose S64x12 [1, 0] W transposes_S12x64_S64x12_1_0) (starts rel))
    (broadcastInDim S4x2048x2048x12 ![] bcast_S_S4x2048x2048x12 (constant S_ .f32 0x7FC00000#32))

end Cert.ReferenceIdeal.RefRun

end
-- ==== Proof.RefRun.lean ====
/-
  The reference program's run.

  The reference's operations in order, the two outlined functions opened at their calls, are a straight line; every
  weakly fair execution ends with the result buffer at their composed term of the two arguments it reads, and the
  arguments unchanged.
-/
import proofs.«404445_j67319317397983_2_alg».proof.Proof.RefTerm
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The program's operations in order, the calls opened. -/
abbrev ops : List (HloOp τ sig (Elt F)) :=
  [ unary main_arg2 main_v0 ((transpose S64x12 [1, 0] · transposes_S12x64_S64x12_1_0) : (⟨S12x64, .f32⟩ : BufTy).Contents (Elt F) → (⟨S64x12, .f32⟩ : BufTy).Contents (Elt F)),
    TRef.nullary main_call0.c (constantI S_ 32 0#32),
    TRef.unary main_call0.c main_call0.v0 (broadcastInDim S4x2048x2048 ![] bcast_S_S4x2048x2048),
    TRef.binary (.of main_arg0) main_call0.v0 main_call0.v1 (cmpi .slt),
    TRef.nullary main_call0.c_0 (constantI S_ 32 64#32),
    TRef.unary main_call0.c_0 main_call0.v2 (broadcastInDim S4x2048x2048 ![] bcast_S_S4x2048x2048),
    TRef.binary (.of main_arg0) main_call0.v2 main_call0.v3 addi,
    TRef.ternary main_call0.v1 main_call0.v3 (.of main_arg0) main_call0.call0.v0 select,
    TRef.unary main_call0.call0.v0 main_call0.v5 (broadcastInDim S4x2048x2048x1 ![0, 1, 2] bcast_S4x2048x2048_S4x2048x2048x1_0_1_2),
    TRef.nullary main_call0.c_1 (constantI S1 32 63#32),
    TRef.nullary main_call0.c_2 (constantI S_ 32 0#32),
    TRef.unary main_call0.c_2 main_call0.v6 (broadcastInDim S4x2048x2048x1 ![] bcast_S_S4x2048x2048x1),
    TRef.binary main_call0.v5 main_call0.v6 main_call0.v7 (cmpi .sge),
    TRef.unary main_call0.c_1 main_call0.v8 (broadcastInDim S1x1x1x1 ![3] bcast_S1_S1x1x1x1_3),
    TRef.unary main_call0.v8 main_call0.v9 (broadcastInDim S4x2048x2048x1 ![0, 1, 2, 3] bcast_S1x1x1x1_S4x2048x2048x1_0_1_2_3),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S4x2048x2048x1_S4x2048x2048_d3 h_S_),
    TRef.binary (.of main_v0) main_call0.v5 main_call0.v13 (fun x i => Host.gather gather_S64x12_S4x2048x2048x1_S4x2048x2048x12_3_0_n_n_0_3_112 x i),
    TRef.unary main_call0.v12 main_call0.v14 (broadcastInDim S4x2048x2048x12 ![0, 1, 2] bcast_S4x2048x2048_S4x2048x2048x12_0_1_2),
    TRef.nullary main_call0.cst (constant S_ .f32 0x7FC00000#32),
    TRef.unary main_call0.cst main_call0.v15 (broadcastInDim S4x2048x2048x12 ![] bcast_S_S4x2048x2048x12),
    TRef.ternary main_call0.v14 main_call0.v13 main_call0.v15 main_call0.v16 select ]

set_option maxRecDepth 4096 in
/-- The program is that straight line: the functions' definitions unfolded at their calls. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., nullary_bufs_sub .., unary_bufs_sub .., binary_bufs_sub .., nullary_bufs_sub .., unary_bufs_sub ..,
    binary_bufs_sub .., ternary_bufs_sub .., unary_bufs_sub .., nullary_bufs_sub .., nullary_bufs_sub .., unary_bufs_sub ..,
    binary_bufs_sub .., unary_bufs_sub .., unary_bufs_sub .., binary_bufs_sub .., binary_bufs_sub .., nullary_bufs_sub ..,
    binary_bufs_sub .., binary_bufs_sub .., unary_bufs_sub .., nullary_bufs_sub .., unary_bufs_sub .., ternary_bufs_sub ..⟩

/-- Contents carried to a buffer's own type and back are the contents. -/
theorem ofBuf_toBuf {T : BufTy} (x : TRef sig T) (v : T.Contents (Elt F)) : x.ofBuf (x.toBuf v) = v := by
  obtain ⟨r, rfl, _, _⟩ := x
  rfl

attribute [local irreducible] Host.reduce Host.gather in
set_option maxRecDepth 8192 in
/-- The fold of the operations at the result buffer is the composed term. -/
theorem out_eq (V : Valuation τ sig (Elt F)) :
    after ops V (main_v1 : DevRef τ sig) = taken (V (main_arg2 : DevRef τ sig)) (V (main_arg0 : DevRef τ sig)) := by
  unfold taken inTable starts adjusted
  after_results
  simp only [ofBuf_toBuf]
  rfl

theorem arg0_eq (V : Valuation τ sig (Elt F)) : after ops V (main_arg0 : DevRef τ sig) = V (main_arg0 : DevRef τ sig) := by
  after_results
theorem arg1_eq (V : Valuation τ sig (Elt F)) : after ops V (main_arg1 : DevRef τ sig) = V (main_arg1 : DevRef τ sig) := by
  after_results
theorem arg2_eq (V : Valuation τ sig (Elt F)) : after ops V (main_arg2 : DevRef τ sig) = V (main_arg2 : DevRef τ sig) := by
  after_results

/-- Every weakly fair execution of the reference terminates with the result at the composed term of the arguments as
    launched, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v1)
          = taken (m ((c.tc : Thread nD τ).loc main_arg2)) (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v1).trans (out_eq _), (h c main_arg0).trans (arg0_eq _),
      (h c main_arg1).trans (arg1_eq _), (h c main_arg2).trans (arg2_eq _)⟩)
    (run_seq scopedRefs_eq scopedSems_eq defs main (fun _ => ops) main_eq (fun _ => ops_sub) m ρ)

end Cert.ReferenceIdeal.RefRun

end
-- ==== Proof.LibGather4.lean ====
/-
  Rows of a table gathered at a rank-3 array of indices, read at an entry.

  `x[idx]` of a table x : [N, D] at an index array idx : [A, B, C], the indices carried as [A, B, C, 1], is a gather
  whose result [A, B, C, D] has at (a, b, c, q) the table's entry (r, q), r the start index idx[a, b, c, 0] read as a
  signed integer and clamped into [0, N - 1].
-/
import Idealize.ShloMosaic.PureOps.Ideal.Laws
import Idealize.ShloMosaic.Lib.ValueIdx

noncomputable section

namespace Cert.LibGather4

open Idealize.ShloMosaic Idealize.ShloMosaic.ValueIdx

/-- What `x[idx]` of a table x : [N, D] at indices [A, B, C, 1] lowers to. -/
abbrev rowsGather4 (N A B C D : Nat)
    (wf : GatherDims.WF ⟨2, ![N, D]⟩ ⟨4, ![A, B, C, 1]⟩ ⟨4, ![A, B, C, D]⟩ [3] [0] [] [0] [] 3 ![1, D]) :
    GatherDims ⟨2, ![N, D]⟩ ⟨4, ![A, B, C, 1]⟩ ⟨4, ![A, B, C, D]⟩ where
  offsetDims := [3]
  collapsedSliceDims := [0]
  operandBatchingDims := []
  startIndicesBatchingDims := []
  startIndexMap := [0]
  indexVectorDim := 3
  sliceSizes := ![1, D]
  wf := wf

/-- The gather read at (a, b, c, q): the table's row at the start index, read signed and clamped, at column q. -/
theorem gather_rows4_apply (N A B C D : Nat) {α : Type} {w : Nat} (hN : 0 < N)
    (wf : GatherDims.WF ⟨2, ![N, D]⟩ ⟨4, ![A, B, C, 1]⟩ ⟨4, ![A, B, C, D]⟩ [3] [0] [] [0] [] 3 ![1, D])
    (x : (⟨2, ![N, D]⟩ : Shape).Idx → α) (idx : IVec ⟨4, ![A, B, C, 1]⟩ w) (a : Fin A) (b : Fin B) (c : Fin C) (q : Fin D) :
    Host.gather (rowsGather4 N A B C D wf) x idx (ix4 a b c q)
      = x (ix2 (⟨min (idx (ix4 a b c 0)).toInt.toNat (N - 1), by omega⟩ : Fin N) q) := by
  have fin2 : ∀ ax : Fin 2, ax = 0 ∨ ax = 1 := by decide
  unfold Host.gather
  congr 1
  funext ax
  refine Fin.ext ?_
  show (rowsGather4 N A B C D wf).start (ix4 a b c q) idx ax + (rowsGather4 N A B C D wf).batchCoord (ix4 a b c q) ax
    + (rowsGather4 N A B C D wf).offCoord (ix4 a b c q) ax = _
  rw [GatherDims.batchCoord_eq_zero _ _ _ List.not_mem_nil]
  rcases fin2 ax with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsGather4 N A B C D wf).startIndexMap from List.mem_singleton.mpr rfl)]
    have hsi : (rowsGather4 N A B C D wf).siIdx (ix4 a b c q) ⟨List.idxOf (0 : Fin 2) (rowsGather4 N A B C D wf).startIndexMap,
        List.idxOf_lt_length_iff.2 (List.mem_singleton.mpr rfl)⟩ = ix4 a b c 0 := by
      funext e; refine Fin.ext ?_
      match e with
      | ⟨0, _⟩ => rfl
      | ⟨1, _⟩ => rfl
      | ⟨2, _⟩ => rfl
      | ⟨3, _⟩ => rfl
    rw [hsi]
    rfl
  · have hstart : (rowsGather4 N A B C D wf).start (ix4 a b c q) idx 1 = 0 := by
      unfold GatherDims.start
      rw [dif_neg (fun h => Nat.one_ne_zero (congrArg Fin.val (List.mem_singleton.mp h)))]
    rw [hstart]
    have hk : (1 : Fin 2) ∈ (rowsGather4 N A B C D wf).sKept := by
      rw [GatherDims.mem_sKept]; exact ⟨fun h => Nat.one_ne_zero (congrArg Fin.val (List.mem_singleton.mp h)), List.not_mem_nil⟩
    unfold GatherDims.offCoord
    rw [dif_pos hk]
    simp only [Nat.add_zero, Nat.zero_add]
    rfl

end Cert.LibGather4

end
-- ==== Proof.LibAllOnes.lean ====
/-
  A reduction by "and" over one-bit words that are all one.

  A one-operand reduce by "and" from the initial word 1 is, at a result index j, the fold of "and" over the operand's
  words at the indices that drop to j.  When each of those words is 1 the result is 1.
-/
import Idealize.ShloMosaic.PureOps.Reduce

namespace Cert.LibAllOnes

open Idealize.ShloMosaic

/-- A fold by "and" from 1 over words that are all 1 is 1. -/
theorem fold_andi_one {ι : Type} [DecidableEq ι] (S : Finset ι) (x : ι → BitVec 1) (h : ∀ i ∈ S, x i = 1#1) :
    S.fold IntOp.andi 1#1 x = 1#1 := by
  induction S using Finset.induction_on with
  | empty => rfl
  | insert a S ha ih =>
    rw [Finset.fold_insert ha, h a (Finset.mem_insert_self a S), ih (fun i hi => h i (Finset.mem_insert_of_mem hi))]
    rfl

/-- The reduce by "and" is 1 at j when the initial word is 1 and every operand word that reduces into j is 1. -/
theorem reduce_andi_eq_one_of_all {s t u : Shape} {axes : List (Fin s.rank)} (x : s.Idx → BitVec 1) (init : u.Idx → BitVec 1)
    (h : s.ReducesTo axes t) (hu : 0 < u.numel) (j : t.Idx) (hinit : init (Shape.Idx.first hu) = 1#1)
    (hx : ∀ i : s.Idx, h.drop i = j → x i = 1#1) : Host.reduce IntOp.andi x init h hu j = 1#1 := by
  rw [Host.reduce_eq_fold, hinit]
  exact fold_andi_one _ x (fun i hi => hx i (Finset.mem_filter.mp hi).2)

end Cert.LibAllOnes
-- ==== Proof.RefValue.lean ====
/-
  The reference's result, entry by entry, is the table lookup.

  For index words in [0, 64): no word is negative, so the adjusted index is the word itself; it lies in [0, 63], so
  the in-table test holds everywhere and the select keeps the gathered row; the gather's clamp changes nothing; and
  the gathered row of the transposed table at column h is the table's entry (h, word).
-/
import proofs.«404445_j67319317397983_2_alg».proof.Proof.RefTerm
import proofs.«404445_j67319317397983_2_alg».proof.Proof.LibGather4
import proofs.«404445_j67319317397983_2_alg».proof.Proof.LibAllOnes
import proofs.«404445_j67319317397983_2_alg».proof.Proof.Lookup
import Idealize.ShloMosaic.Lib.Pipeline.Value
import Idealize.ShloMosaic.Lib.Affine

noncomputable section

namespace Cert.ReferenceIdeal.RefValue

open Cert.ReferenceIdeal Cert.ReferenceIdeal.Gen Cert.ReferenceIdeal.RefRun Idealize.ShloMosaic Idealize.ShloMosaic.ValueIdx

/-- A word below 64 reads the same signed and unsigned. -/
theorem toInt_of_lt {r : BitVec 32} (hr : r.toNat < 64) : r.toInt = (r.toNat : Int) :=
  BitVec.toInt_eq_toNat_of_lt (by omega)

/-- A word below 64 is not negative: its adjusted index is itself. -/
theorem adjusted_apply (rel : IVec S4x2048x2048 32) (j : S4x2048x2048.Idx) (hr : (rel j).toNat < 64) : adjusted rel j = rel j := by
  show Scalar.select (IntOp.cmpi .slt (rel j) 0#32) (IntOp.addi (rel j) 64#32) (rel j) = rel j
  have z0 : (0#32 : BitVec 32).toInt = 0 := by decide
  have hc : IntOp.cmpi .slt (rel j) 0#32 = 0#1 := eq_zero_of_ne_one (fun h => by
    have h' := IntOp.cmpi_slt.mp h
    rw [toInt_of_lt hr, z0] at h'
    omega)
  rw [hc, select_zero]

/-- An array over the first three axes, repeated along a fourth, reads at (a, b, c, d) its entry (a, b, c). -/
theorem bcast3_apply {α : Type} {D : Nat} (x : S4x2048x2048.Idx → α)
    (h : S4x2048x2048.BroadcastsInDim ⟨4, ![4, 2048, 2048, D]⟩ ![0, 1, 2]) (a : Fin 4) (b : Fin 2048) (c : Fin 2048) (d : Fin D) :
    broadcastInDim ⟨4, ![4, 2048, 2048, D]⟩ ![0, 1, 2] h x (ix4 a b c d) = x (ix3 a b c) := by
  refine broadcastInDim_apply ![0, 1, 2] h x (ix4 a b c d) (ix3 a b c) (fun ax => ?_)
  match ax with
  | ⟨0, _⟩ =>
    show a.val = if (4 : Nat) = 1 then 0 else a.val
    exact (if_neg (by decide)).symm
  | ⟨1, _⟩ =>
    show b.val = if (2048 : Nat) = 1 then 0 else b.val
    exact (if_neg (by decide)).symm
  | ⟨2, _⟩ =>
    show c.val = if (2048 : Nat) = 1 then 0 else c.val
    exact (if_neg (by decide)).symm

/-- The column of start indices reads the adjusted index of its first three coordinates. -/
theorem starts_apply (rel : IVec S4x2048x2048 32) (a : Fin 4) (b : Fin 2048) (c : Fin 2048) (d : Fin 1) :
    starts rel (ix4 a b c d) = adjusted rel (ix3 a b c) :=
  bcast3_apply (adjusted rel) bcast_S4x2048x2048_S4x2048x2048x1_0_1_2 a b c d

/-- Every adjusted index lies in the table. -/
theorem inTable_apply (rel : IVec S4x2048x2048 32) (hr : ∀ j, (rel j).toNat < 64) (j3 : S4x2048x2048.Idx) : inTable rel j3 = 1#1 := by
  unfold inTable
  refine Cert.LibAllOnes.reduce_andi_eq_one_of_all _ _ _ _ j3 rfl (fun i4 _ => ?_)
  obtain ⟨a, b, c, d, rfl⟩ : ∃ (a : Fin 4) (b : Fin 2048) (c : Fin 2048) (d : Fin 1), i4 = ix4 a b c d :=
    ⟨i4 0, i4 1, i4 2, i4 3, eq_ix4 i4⟩
  show IntOp.andi (IntOp.cmpi .sge (starts rel (ix4 a b c d)) 0#32) (IntOp.cmpi .sle (starts rel (ix4 a b c d)) 63#32) = 1#1
  rw [starts_apply, adjusted_apply rel _ (hr _)]
  have z0 : (0#32 : BitVec 32).toInt = 0 := by decide
  have z63 : (63#32 : BitVec 32).toInt = 63 := by decide
  have hh := hr (ix3 a b c)
  refine IntOp.andi_eq_one.mpr ⟨IntOp.cmpi_sge.mpr ?_, IntOp.cmpi_sle.mpr ?_⟩
  · rw [toInt_of_lt hh, z0]; omega
  · rw [toInt_of_lt hh, z63]; omega

/-- The reference's result is the lookup, when every index word is below 64. -/
theorem taken_eq (W : FVec Ideal S12x64 .f32) (rel : IVec S4x2048x2048 32) (hr : ∀ j, (rel j).toNat < 64) :
    taken (F := Ideal) W rel = Cert.Lookup.lookup rel W := by
  funext i
  obtain ⟨a, b, c, q, rfl⟩ : ∃ (a : Fin 4) (b : Fin 2048) (c : Fin 2048) (q : Fin 12), i = ix4 a b c q :=
    ⟨i 0, i 1, i 2, i 3, eq_ix4 i⟩
  rw [Cert.Lookup.lookup_apply rel W a b c q (hr _)]
  unfold taken
  rw [select_apply]
  have hm : broadcastInDim S4x2048x2048x12 ![0, 1, 2] bcast_S4x2048x2048_S4x2048x2048x12_0_1_2 (inTable rel) (ix4 a b c q) = 1#1 :=
    (bcast3_apply (inTable rel) bcast_S4x2048x2048_S4x2048x2048x12_0_1_2 a b c q).trans (inTable_apply rel hr _)
  rw [hm, select_one]
  show Host.gather (Cert.LibGather4.rowsGather4 64 4 2048 2048 12 gather_S64x12_S4x2048x2048x1_S4x2048x2048x12_3_0_n_n_0_3_112_wf)
    (transpose S64x12 [1, 0] W transposes_S12x64_S64x12_1_0) (starts rel) (ix4 a b c q) = _
  rw [Cert.LibGather4.gather_rows4_apply 64 4 2048 2048 12 (by decide) _ _ _ a b c q]
  have hh := hr (ix3 a b c)
  refine transpose_apply _ W _ _ (ix2 q ⟨(rel (ix3 a b c)).toNat, hh⟩) (fun bx => ?_)
  match bx with
  | ⟨0, _⟩ =>
    show (rel (ix3 a b c)).toNat = min (starts rel (ix4 a b c 0)).toInt.toNat (64 - 1)
    rw [starts_apply, adjusted_apply rel _ hh, toInt_of_lt hh, Int.toNat_natCast]
    omega
  | ⟨1, _⟩ => rfl

end Cert.ReferenceIdeal.RefValue

end
-- ==== Proof.PreRange.lean ====
/-
  The precondition read back: every index word lies in [0, 64).

  The precondition's last conjunct is the "and" over the whole index array of (word >= 0) and (word < 64), both
  compared signed.  Where the precondition is all ones, every index word read signed is therefore in [0, 64), and
  a 32-bit word whose signed reading is non-negative reads the same unsigned: its unsigned value is below 64.
-/
import proofs.«404445_j67319317397983_2_alg».proof.Proof.Gen.Pre_finite_inputs
import Idealize.ShloMosaic.Lib.ReduceAll
import Idealize.ShloMosaic.Lib.ValueIdx

noncomputable section

namespace Cert.PreRange

open Idealize.ShloMosaic Idealize.ShloMosaic.ValueIdx Cert.Pre_finite_inputs

/-- A 32-bit word whose signed reading is in [0, n) has its unsigned reading below n. -/
theorem toNat_lt_of_toInt {x : BitVec 32} {n : Nat} (h0 : 0 ≤ x.toInt) (h1 : x.toInt < (n : Int)) : x.toNat < n := by
  have hpos : 2 * x.toNat < 2 ^ 32 := BitVec.toInt_pos_iff.mp h0
  have e : x.toInt = x.toNat := BitVec.toInt_eq_toNat_of_lt hpos
  omega

instance : Subsingleton S_.Idx := ⟨fun a b => funext fun d => d.elim0⟩

/-- Under the precondition every index word, read unsigned, is below 64. -/
theorem toNat_lt_of_pre {F : FTy → Type} [FloatOps F] (rel : IVec S4x2048x2048 32) (x : FVec F S4x2048x16 .f32)
    (W : FVec F S12x64 .f32) (h : fn (F := F) rel x W = fun _ => 1#1) (j : S4x2048x2048.Idx) : (rel j).toNat < 64 := by
  have h0 := congrFun h ix0
  dsimp only [fn] at h0
  have h1 := (IntOp.andi_eq_one.mp h0).2
  have h2 := Host.reduce_andi_all _ _ _ _ ix0 h1 j
  obtain ⟨hge, hlt⟩ := IntOp.andi_eq_one.mp h2
  have hge' : (0#32 : BitVec 32).toInt ≤ (rel j).toInt := IntOp.cmpi_sge.mp hge
  have hlt' : (rel j).toInt < (64#32 : BitVec 32).toInt := IntOp.cmpi_slt.mp hlt
  have z0 : (0#32 : BitVec 32).toInt = 0 := by decide
  have z64 : (64#32 : BitVec 32).toInt = 64 := by decide
  rw [z0] at hge'
  rw [z64] at hlt'
  exact toNat_lt_of_toInt hge' hlt'

end Cert.PreRange

end
-- ==== Proof.lean ====
/-
  Both programs compute a table lookup: entry (a, b, c, h) of the result is W (h, rel (a, b, c)), for an index array
  rel of words in [0, 64) and a 12 x 64 table W.

  The kernel's program clamps the index array into [0, 63], lays it out as one row of 16777216 words, and per tile of
  32768 positions multiplies the table by the one-hot array of the tile's words (64 classes down, positions across);
  the tiles' blocks fill a 12 x 16777216 array, which is transposed and laid out over the index array's axes.  On the
  extended reals the product's entry is the sum over classes of W (h, k) times 1 or 0, which is the one entry
  W (h, word): a product with zero is zero even for an infinite factor, so the table's finiteness is not used.
  The reference gathers rows of the transposed table, wrapping negative indices and filling rows whose index is out of
  the table; under the precondition's range conjunct (every index word in [0, 64)) no index wraps, none is filled,
  the clamps on either side change nothing, and both results are the lookup.

  The three frames: the kernel's two are the generated frame certificates; the reference's is its run with the
  result dropped.  Nothing was rewritten by the ideal pass, so there is nothing to preserve.
-/
import proofs.«404445_j67319317397983_2_alg».proof.Defs
import proofs.«404445_j67319317397983_2_alg».proof.Proof.Gen.Kernel
import proofs.«404445_j67319317397983_2_alg».proof.Proof.Gen.Kernel.Skeleton
import proofs.«404445_j67319317397983_2_alg».proof.Proof.Gen.Kernel.Launch
import proofs.«404445_j67319317397983_2_alg».proof.Proof.Gen.Kernel.Points
import proofs.«404445_j67319317397983_2_alg».proof.Proof.Gen.Kernel.Frame
import proofs.«404445_j67319317397983_2_alg».proof.Proof.Gen.KernelIdeal
import proofs.«404445_j67319317397983_2_alg».proof.Proof.Gen.KernelIdeal.Skeleton
import proofs.«404445_j67319317397983_2_alg».proof.Proof.Gen.KernelIdeal.Launch
import proofs.«404445_j67319317397983_2_alg».proof.Proof.Gen.KernelIdeal.Points
import proofs.«404445_j67319317397983_2_alg».proof.Proof.Gen.KernelIdeal.Frame
import proofs.«404445_j67319317397983_2_alg».proof.Proof.Gen.ReferenceIdeal
import proofs.«404445_j67319317397983_2_alg».proof.Proof.Gen.Pre_finite_inputs
import proofs.«404445_j67319317397983_2_alg».proof.Proof.KernelEntry
import proofs.«404445_j67319317397983_2_alg».proof.Proof.RefRun
import proofs.«404445_j67319317397983_2_alg».proof.Proof.RefValue
import proofs.«404445_j67319317397983_2_alg».proof.Proof.PreRange
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run with the result dropped. -/
theorem frame_ri : Cert.frame_ReferenceIdeal := fun m ρ _ =>
  (θ_run Cert.ReferenceIdeal.defs _ _).mono (fun _ h c => (h c).2) (Cert.ReferenceIdeal.RefRun.run (F := Ideal) m ρ)

theorem preserves : Cert.preserves_Kernel_KernelIdeal := trivial

/-- From memories agreeing on the arguments both programs end at the lookup of the index array in the table. -/
theorem algebraic : Cert.algebraic_KernelIdeal_ReferenceIdeal := by
  intro m ρ m' ρ' hpre hagree
  have hr : ∀ (c : Dev Cert.KernelIdeal.nD) j,
      ((m ((c.tc : Thread Cert.KernelIdeal.nD Cert.KernelIdeal.τ).loc Cert.KernelIdeal.main_arg0)) j).toNat < 64 :=
    fun c j => Cert.PreRange.toNat_lt_of_pre _ _ _ (hpre c) j
  refine ⟨fun c => Cert.Lookup.lookup (m ((c.tc : Thread Cert.KernelIdeal.nD Cert.KernelIdeal.τ).loc Cert.KernelIdeal.main_arg0))
    (m ((c.tc : Thread Cert.KernelIdeal.nD Cert.KernelIdeal.τ).loc Cert.KernelIdeal.main_arg2)), ?_, ?_⟩
  · exact (θ_run Cert.KernelIdeal.defs _ _).mono
      (fun _ h c => ⟨(h c).1.trans (Cert.KernelIdeal.KE.result_eq _ _ (hr c)), (h c).2⟩) (Cert.KernelIdeal.KV.run m ρ)
  · refine (θ_run Cert.ReferenceIdeal.defs _ _).mono (fun _ h c => ⟨(h c).1.trans ?_, (h c).2⟩)
      (Cert.ReferenceIdeal.RefRun.run (F := Ideal) m' ρ')
    rw [(hagree c).1, (hagree c).2.2]
    exact Cert.ReferenceIdeal.RefValue.taken_eq _ _ (hr c)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
